-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 55
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000x1, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S1700000x128, .f32⟩
  | .hbm, ⟨46, _⟩ => ⟨S1700000x128, .f32⟩
  | .hbm, ⟨47, _⟩ => ⟨S_, .f32⟩
  | .hbm, ⟨48, _⟩ => ⟨S100000x128, .f32⟩
  | .hbm, ⟨49, _⟩ => ⟨S1700000x1, .i32⟩
  | .hbm, ⟨50, _⟩ => ⟨S100000x128, .f32⟩
  | .hbm, ⟨51, _⟩ => ⟨S100000x1, .f32⟩
  | .hbm, ⟨52, _⟩ => ⟨S128x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S100000_S100000x1 : S100000.ShapeCasts S100000x1
  transposes_S128x128_S128x128_1_0 : S128x128.Transposes [1, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000x1, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .f32⟩
  | .hbm, ⟨45, _⟩ => ⟨S1700000x128, .f32⟩
  | .hbm, ⟨46, _⟩ => ⟨S1700000x128, .f32⟩
  | .hbm, ⟨47, _⟩ => ⟨S_, .f32⟩
  | .hbm, ⟨48, _⟩ => ⟨S100000x128, .f32⟩
  | .hbm, ⟨49, _⟩ => ⟨S1700000x1, .i32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The layer both programs end with, as ONE function of four arrays, index by index.

  Both programs first aggregate messages over the edges (the same host operations on both sides, carried below as
  two arrays that are never opened): `d`, one factor per node (the node's degree to the power -1/2, zero where the
  degree is zero), and `a`, the aggregated features, one row per node. Then, for node `r` and output channel `j`,

      out (r, j) = (∑ k, (d r · a (r, k)) · W (j, k)) + b j

  with `W` the weight of the linear map (read transposed: the contraction runs over its second axis) and `b` its
  bias. The kernel computes this block of 5000 rows by block of 5000 rows, the reference on whole arrays.
-/
import Idealize.ShloMosaic.PureOps.Ideal
import Idealize.ShloMosaic.Lib.ValueIdx

noncomputable section

namespace Cert.GcnLayer

open Idealize.ShloMosaic Idealize.ShloMosaic.ValueIdx

/-- One entry per node. -/
abbrev Nodes : Shape := ⟨1, ![100000]⟩
/-- One entry per channel. -/
abbrev Chans : Shape := ⟨1, ![128]⟩
/-- One row of 128 channels per node. -/
abbrev NodeRows : Shape := ⟨2, ![100000, 128]⟩
/-- The weight: output channel by input channel. -/
abbrev Weight : Shape := ⟨2, ![128, 128]⟩

/-- The rescaled aggregate pushed through the linear map: entry `(r, j)` is the sum over the input channels `k` of
    `(d r · a (r, k)) · W (j, k)`, plus the bias `b j`. -/
def layer (d : Nodes.Idx → EReal) (a : NodeRows.Idx → EReal) (W : Weight.Idx → EReal) (b : Chans.Idx → EReal) :
    NodeRows.Idx → EReal :=
  fun i => (∑ k : Fin 128, (d (ix1 (i 0)) * a (ix2 (i 0) k)) * W (ix2 (i 1) k)) + b (ix1 (i 1))

theorem layer_apply (d : Nodes.Idx → EReal) (a : NodeRows.Idx → EReal) (W : Weight.Idx → EReal) (b : Chans.Idx → EReal)
    (r : Fin 100000) (j : Fin 128) :
    layer d a W b (ix2 r j) = (∑ k : Fin 128, (d (ix1 r) * a (ix2 r k)) * W (ix2 j k)) + b (ix1 j) := rfl

end Cert.GcnLayer

end
-- ==== Proof.RefLayer.lean ====
/-
  The reference is the layer. Read one operation at a time, the reference's result at `(r, j)` is the sum over the
  input channels `k` of `(d r · a (r, k))` — the per-node factor broadcast along the row, times the aggregate —
  against the transposed weight at `(k, j)`, that is `W (j, k)`, plus the bias broadcast down the rows. The factor `d`
  and the aggregate `a` are the reference's own stages (the degree's inverse square root and the edge-wise sum);
  they are named here and never opened.
-/
import proofs.«150162_j3075196584644_1_alg».proof.Proof.RefRead
import proofs.«150162_j3075196584644_1_alg».proof.Proof.Layer

noncomputable section

namespace Cert.ReferenceIdeal.AsLayer

open Cert.ReferenceIdeal Cert.ReferenceIdeal.ReadP Idealize.ShloMosaic Idealize.ShloMosaic.ValueIdx Cert.GcnLayer

/-- The left operand of the reference's product at `(r, k)` is read at row `r`, channel `k`. -/
theorem left_index (r : Fin 100000) (j k : Fin 128) : lidx_main_v41 (ix2 r j) k = ix2 r k :=
  funext fun a => Fin.ext (by match a with | ⟨0, _⟩ => rfl | ⟨1, _⟩ => rfl)

/-- The transposed weight at `(k, j)` is the weight at `(j, k)`. -/
theorem weight_index (r : Fin 100000) (j k : Fin 128) : idx_main_v40 (ridx_main_v41 (ix2 r j) k) = ix2 j k :=
  funext fun a => Fin.ext (by match a with | ⟨0, _⟩ => rfl | ⟨1, _⟩ => rfl)

/-- The factor broadcast along row `r` is the factor of node `r`. -/
theorem factor_index (r : Fin 100000) (k : Fin 128) : idx_main_v37 (idx_main_v38 (ix2 r k)) = ix1 r :=
  funext fun a => Fin.ext (by match a with | ⟨0, _⟩ => rfl)

/-- The bias broadcast down the rows, at column `j`, is the bias at `j`. -/
theorem bias_index (r : Fin 100000) (j : Fin 128) : idx_main_v42 (idx_main_v43 (ix2 r j)) = ix1 j :=
  funext fun a => Fin.ext (by match a with | ⟨0, _⟩ => rfl)

/-- THE REFERENCE'S RESULT is `layer` of its own factor and aggregate stages, the weight and the bias. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v44 (F := Ideal) x0 x1 x2 x3
      = layer (val_main_v16 (F := Ideal) x1) (val_main_v36 (F := Ideal) x0 x1) x2 x3 := by
  funext i
  obtain ⟨r, j, rfl⟩ : ∃ (r : Fin 100000) (j : Fin 128), i = ix2 r j := ⟨i 0, i 1, eq_ix2 i⟩
  rw [layer_apply, val_main_v44_apply, val_main_v41_apply, val_main_v43_apply, val_main_v42_apply, bias_index]
  show (∑ k : Fin 128, _) + _ = _
  refine congrArg (· + x3 (ix1 j)) (Finset.sum_congr rfl fun k _ => ?_)
  rw [left_index, val_main_v39_apply, val_main_v38_apply, val_main_v37_apply, factor_index, val_main_v40_apply, weight_index]
  rfl

end Cert.ReferenceIdeal.AsLayer

end
-- ==== Proof.Block.lean ====
/-
  One grid point's arithmetic, read at an index. The body takes a block of 5000 node rows: the aggregated
  features `xa` (5000 by 128), the per-node factors `xd` (one column, 5000 by 1), the transposed weight `xw`
  (input channel by output channel) and the bias `xb` (one row, 1 by 128). It scales row `p` of `xa` by `xd p`,
  multiplies by `xw` on the matrix unit into a zero accumulator and adds the bias row. With floats read as
  extended reals a change of format is the identity and the matrix product is its textbook sum, so entry `(p, q)`
  of what the body stores is

      (∑ k, (xd (p, 0) · xa (p, k)) · xw (k, q)) + xb (0, q).
-/
import proofs.«150162_j3075196584644_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The matrix product's operand indices: row `i 0` against column `i 1`, the contracted coordinate on the
    left operand's second axis and the right operand's first -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at `(p, q)`: the sum over the 128 contracted coordinates
    of the left operand's row `p` against the right operand's column `q`. -/
theorem matmul_zero_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- A column `[5000, 1]` broadcast along the channels reads, at `(p, q)`, the column's entry `p`. -/
theorem column_broadcast_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-- THE BODY'S STORED VALUE at `(p, q)`: row `p` of the aggregate scaled by the node's factor, against column `q`
    of the transposed weight, plus the bias at `q`. -/
theorem stored_apply (xd : FVec Ideal S5000x1 .f32) (xa : FVec Ideal S5000x128 .f32) (xw : FVec Ideal S128x128 .f32)
    (xb : FVec Ideal S1x128 .f32) (p : Fin 5000) (q : Fin 128) :
    k0_pay1 (F := Ideal) xd xa xw xb (ix2 p q)
      = (∑ k : Fin 128, (xd (ix2 p (0 : Fin 1)) * xa (ix2 p k)) * xw (ix2 k q)) + xb (ix2 (0 : Fin 1) q) := by
  unfold k0_pay1
  rw [addf_apply, matmul_zero_apply, broadcastTo_1b_ab_apply]
  simp only [truncf_apply, mulf_apply, shapeCast_self, column_broadcast_apply]

end Cert.KernelIdeal.Block

end
-- ==== Proof.LibColumn.lean ====
/-
  Column vectors read at an index: a vector `[a]` laid out as a column `[a, 1]`, and a column `[a, 1]` broadcast
  along a second axis to `[a, b]` (the layouts a per-row factor takes on its way into a row-by-row product).
  General lemmas: they mention no program.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to the column `[a, 1]` reads, at `(i, u)`, the operand at `i`, whatever the unit coordinate `u`:
    both indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis is read at `0`,
    the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

end Cert.LibColumn
-- ==== Proof.Entry.lean ====
/-
  What the kernel's one region finds in the four arrays it stages. Before the region @main runs the same edge-wise
  aggregation as the reference, operation for operation, and then lays three arrays out for the kernel:

    * the aggregate (one row of 128 channels per node) is the reference's own aggregate stage of the same arguments;
    * the per-node factor, as a column `[100000, 1]`: entry `(r, 0)` is the reference's factor stage at node `r`;
    * the weight transposed: entry `(k, j)` is the weight at `(j, k)`;
    * the bias as a row `[1, 128]`: entry `(0, j)` is the bias at `j`.

  The aggregation itself (degrees, their inverse square roots, the gathers and the two scatter-adds) is never opened:
  both programs apply the same operations to the same arguments, and the two spellings are compared as they stand,
  for any float family.
-/
import proofs.«150162_j3075196584644_1_alg».proof.Proof.Gen.KernelIdeal.Frame
import proofs.«150162_j3075196584644_1_alg».proof.Proof.RefRead
import proofs.«150162_j3075196584644_1_alg».proof.Proof.LibColumn
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

set_option maxRecDepth 8192 in
set_option maxHeartbeats 2000000 in
/-- The aggregate the region stages is the reference's aggregate stage of the node features and the edge list. -/
theorem aggregate_eq (c : Dev nD) :
    (V m c main_v36 : (⟨S100000x128, .f32⟩ : BufTy).Contents (Elt F))
      = Cert.ReferenceIdeal.ReadP.val_main_v36 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp <;> rfl

set_option maxRecDepth 8192 in
set_option maxHeartbeats 2000000 in
/-- The factor column the region stages is the reference's factor stage of the edge list, laid out as a column. -/
theorem factor_eq (c : Dev nD) :
    (V m c main_v37 : (⟨S100000x1, .f32⟩ : BufTy).Contents (Elt F))
      = shapeCast S100000x1 (Cert.ReferenceIdeal.ReadP.val_main_v16 (F := F) (m ((c : Thread nD τ).loc main_arg1))) shapeCasts_S100000_S100000x1 := by
  dsimp only [V]
  simp only [hostOps0, hostOps0_1, hostOps0_2, List.flatten_cons, List.flatten_nil, List.append_nil, List.cons_append, List.nil_append]
  after_results_simp <;> rfl

set_option maxRecDepth 8192 in
set_option maxHeartbeats 2000000 in
/-- The weight the region stages is the weight argument transposed. -/
theorem weight_eq (c : Dev nD) :
    (V m c main_v38 : (⟨S128x128, .f32⟩ : BufTy).Contents (Elt F))
      = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append, List.nil_append]
  after_results_simp <;> rfl

set_option maxRecDepth 8192 in
set_option maxHeartbeats 2000000 in
/-- The bias the region stages is the bias argument laid out as one row. -/
theorem bias_eq (c : Dev nD) :
    (V m c main_v39 : (⟨S1x128, .f32⟩ : BufTy).Contents (Elt F))
      = shapeCast S1x128 (m ((c : Thread nD τ).loc main_arg3)) shapeCasts_S128_S1x128 := by
  dsimp only [V]
  simp only [hostOps0, hostOps0_1, hostOps0_2, List.flatten_cons, List.flatten_nil, List.append_nil, List.cons_append, List.nil_append]
  after_results_simp <;> rfl

/-- The factor column at `(r, 0)` is the factor of node `r`. -/
theorem factor_apply (c : Dev nD) (r : Fin 100000) :
    (V m c main_v37 : S100000x1.Idx → Elt F .f32) (ix2 r (0 : Fin 1))
      = Cert.ReferenceIdeal.ReadP.val_main_v16 (F := F) (m ((c : Thread nD τ).loc main_arg1)) (ix1 r) := by
  rw [factor_eq]
  exact Cert.LibColumn.shapeCast_a_a1_apply _ _ r 0

/-- The staged weight at `(k, j)` is the weight argument at `(j, k)`. -/
theorem weight_apply (c : Dev nD) (k j : Fin 128) :
    (V m c main_v38 : S128x128.Idx → Elt F .f32) (ix2 k j)
      = (m ((c : Thread nD τ).loc main_arg2) : S128x128.Idx → Elt F .f32) (ix2 j k) := by
  rw [weight_eq]
  exact transpose_ix2_apply _ _ k j

/-- The staged bias row at `(0, j)` is the bias argument at `j`. -/
theorem bias_apply (c : Dev nD) (j : Fin 128) :
    (V m c main_v39 : S1x128.Idx → Elt F .f32) (ix2 (0 : Fin 1) j)
      = (m ((c : Thread nD τ).loc main_arg3) : S128.Idx → Elt F .f32) (ix1 j) := by
  rw [bias_eq]
  exact shapeCast_a_1a_apply _ _ 0 j

end Cert.KernelIdeal.Entry

end
-- ==== Proof.KernelLayer.lean ====
/-
  The kernel is the layer. The pipeline cuts the 100000 node rows into 20 blocks of 5000; at grid point `t` the body
  sees rows `5000 t … 5000 t + 4999` of the aggregate and of the factor column, the whole transposed weight and the
  whole bias row, and writes back rows `5000 t … 5000 t + 4999` of the result. Entry `(p, q)` of what it writes is
  `(∑ k, (d (5000 t + p) · a (5000 t + p, k)) · W (q, k)) + b q`: row `5000 t + p` of the layer. The twenty blocks
  tile the array (row `r` is in block `r / 5000`), so after the run the result array IS the layer of the factor, the
  aggregate, the weight and the bias.
-/
import proofs.«150162_j3075196584644_1_alg».proof.Proof.Gen.KernelIdeal.Value
import proofs.«150162_j3075196584644_1_alg».proof.Proof.Block
import proofs.«150162_j3075196584644_1_alg».proof.Proof.Entry
import proofs.«150162_j3075196584644_1_alg».proof.Proof.Layer
import Idealize.ShloMosaic.Lib.Pipeline.Value
import Idealize.ShloMosaic.Lib.Tactic

noncomputable section

namespace Cert.KernelIdeal.AsLayer

open Cert.KernelIdeal Cert.KernelIdeal.Gen Idealize.ShloMosaic Idealize.ShloMosaic.TcCoe Idealize.SL.Sem
open Idealize.ShloMosaic.ValueIdx Cert.GcnLayer
open Idealize.ShloMosaic.Pipeline (Dat)

variable (m : (ℓ : Loc nD τ sig) → Buf (Elt Ideal) ℓ) (ρ : Dev nD → PrngReg)

/-- The per-node factor: the reference's factor stage of the edge list. -/
abbrev factor (c : Dev nD) : Nodes.Idx → EReal :=
  Cert.ReferenceIdeal.ReadP.val_main_v16 (F := Ideal) (m ((c : Thread nD τ).loc main_arg1))

/-- The aggregated features: the reference's aggregate stage of the node features and the edge list. -/
abbrev aggregate (c : Dev nD) : NodeRows.Idx → EReal :=
  Cert.ReferenceIdeal.ReadP.val_main_v36 (F := Ideal) (m ((c : Thread nD τ).loc main_arg0)) (m ((c : Thread nD τ).loc main_arg1))

/-- What the result array ends holding: the layer of the factor, the aggregate, the weight and the bias. -/
def result (c : Dev nD) : Buf (Elt Ideal) ((c : Thread nD τ).loc main_v40) :=
  layer (factor m c) (aggregate m c) (m ((c : Thread nD τ).loc main_arg2)) (m ((c : Thread nD τ).loc main_arg3))

theorem zero_offsets : (![0, 0] : Fin 2 → Nat) = fun _ => 0 := funext fun a => by fin_cases a <;> rfl

/-- Where each window's block sits at point `t`: the aggregate's, the factor column's and the result's at row block `t`,
    the weight's and the bias's always at the origin (decided over the 20 points). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored value at any index of the block (`Block.stored_apply` at the index's two coordinates). -/
theorem stored_at (xd : FVec Ideal S5000x1 .f32) (xa : FVec Ideal S5000x128 .f32) (xw : FVec Ideal S128x128 .f32)
    (xb : FVec Ideal S1x128 .f32) (y : S5000x128.Idx) :
    k0_pay1 (F := Ideal) xd xa xw xb y
      = (∑ k : Fin 128, (xd (ix2 (y 0) (0 : Fin 1)) * xa (ix2 (y 0) k)) * xw (ix2 k (y 1))) + xb (ix2 (0 : Fin 1) (y 1)) :=
  (congrArg (k0_pay1 (F := Ideal) xd xa xw xb) (eq_ix2 (n0 := 5000) (n1 := 128) y)).trans (Block.stored_apply xd xa xw xb (y 0) (y 1))

/-! ## A window's block read through its view, for ANY contents of the window's array

The four lemmas below are about the windows' rectangles only: the array's contents are a variable. -/

/-- Entry `(p, k)` of the block of window 0 at point `t` is entry `(5000 t + p, k)` of the array. -/
theorem rows_read (A : (⟨S100000x128, .f32⟩ : BufTy).Contents (Elt Ideal)) (t : Fin cfg0.N) (p : Fin 5000) (k : Fin 128)
    (r : Fin 100000) (hr : r.val = 5000 * t.val + p.val) :
    (((cfg0.win 0).blk t).view.read (Elt Ideal) A : Vec Ideal S5000x128 .f32) (ix2 p k) = A (ix2 r k) := by
  obtain ⟨e0, e1, -⟩ := block_indices t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `(p, 0)` of the block of window 1 at point `t` is entry `(5000 t + p, 0)` of the column. -/
theorem column_read (A : (⟨S100000x1, .f32⟩ : BufTy).Contents (Elt Ideal)) (t : Fin cfg0.N) (p : Fin 5000)
    (r : Fin 100000) (hr : r.val = 5000 * t.val + p.val) :
    (((cfg0.win 1).blk t).view.read (Elt Ideal) A : Vec Ideal S5000x1 .f32) (ix2 p (0 : Fin 1)) = A (ix2 r (0 : Fin 1)) := by
  obtain ⟨-, -, e0, e1, -⟩ := block_indices t
  show A (((cfg0.win 1).blk t).view.emb (ix2 p (0 : Fin 1))) = A (ix2 r (0 : Fin 1))
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- The block of window 2 at every point is the whole `[128, 128]` array. -/
theorem square_read (A : (⟨S128x128, .f32⟩ : BufTy).Contents (Elt Ideal)) (t : Fin cfg0.N) (k q : Fin 128) :
    (((cfg0.win 2).blk t).view.read (Elt Ideal) A : Vec Ideal S128x128 .f32) (ix2 k q) = A (ix2 k q) := by
  obtain ⟨-, -, -, -, e0, e1, -⟩ := block_indices t
  show A (((cfg0.win 2).blk t).view.emb (ix2 k q)) = A (ix2 k q)
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The block of window 3 at every point is the whole `[1, 128]` row. -/
theorem row_read (A : (⟨S1x128, .f32⟩ : BufTy).Contents (Elt Ideal)) (t : Fin cfg0.N) (q : Fin 128) :
    (((cfg0.win 3).blk t).view.read (Elt Ideal) A : Vec Ideal S1x128 .f32) (ix2 (0 : Fin 1) q) = A (ix2 (0 : Fin 1) q) := by
  obtain ⟨-, -, -, -, -, -, e0, e1, -⟩ := block_indices t
  show A (((cfg0.win 3).blk t).view.emb (ix2 (0 : Fin 1) q)) = A (ix2 (0 : Fin 1) q)
  refine congrArg A (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-! ## Each input block of the run, read -/

/-- The aggregate's block at point `t` is the aggregate read through window 0. -/
theorem aggregate_window (c : Dev nD) (t : Fin cfg0.N) :
    iblk m c 0 t = ((cfg0.win 0).blk t).view.read (Elt Ideal) (aggregate m c) := by
  unfold iblk
  exact congrArg (((cfg0.win 0).blk t).view.read (Elt Ideal)) (Entry.aggregate_eq m c)

/-- Row `p` of the aggregate's block at point `t` is row `5000 t + p` of the aggregate. -/
theorem aggregate_block (c : Dev nD) (t : Fin cfg0.N) (p : Fin 5000) (k : Fin 128) (r : Fin 100000) (hr : r.val = 5000 * t.val + p.val) :
    (iblk m c 0 t : Vec Ideal S5000x128 .f32) (ix2 p k) = aggregate m c (ix2 r k) :=
  (congrFun (aggregate_window m c t) (ix2 p k)).trans (rows_read (aggregate m c) t p k r hr)

/-- Entry `p` of the factor column's block at point `t` is the factor of node `5000 t + p`. -/
theorem factor_block (c : Dev nD) (t : Fin cfg0.N) (p : Fin 5000) (r : Fin 100000) (hr : r.val = 5000 * t.val + p.val) :
    (iblk m c 1 t : Vec Ideal S5000x1 .f32) (ix2 p (0 : Fin 1)) = factor m c (ix1 r) := by
  unfold iblk
  exact (column_read (V m c main_v37) t p r hr).trans (Entry.factor_apply m c r)

/-- The weight's block at every point is the whole transposed weight: entry `(k, q)` is the weight at `(q, k)`. -/
theorem weight_block (c : Dev nD) (t : Fin cfg0.N) (k q : Fin 128) :
    (iblk m c 2 t : Vec Ideal S128x128 .f32) (ix2 k q) = (m ((c : Thread nD τ).loc main_arg2) : S128x128.Idx → EReal) (ix2 q k) := by
  unfold iblk
  exact (square_read (V m c main_v38) t k q).trans (Entry.weight_apply m c k q)

/-- The bias's block at every point is the whole bias row: entry `(0, q)` is the bias at `q`. -/
theorem bias_block (c : Dev nD) (t : Fin cfg0.N) (q : Fin 128) :
    (iblk m c 3 t : Vec Ideal S1x128 .f32) (ix2 (0 : Fin 1) q) = (m ((c : Thread nD τ).loc main_arg3) : S128.Idx → EReal) (ix1 q) := by
  unfold iblk
  exact (row_read (V m c main_v39) t q).trans (Entry.bias_apply m c q)

/-! ## From the blocks to the array -/

/-- One point's arithmetic against the layer, over variables: if the four blocks `xd`, `xa`, `xw`, `xb` read, at the
    coordinates the body's entry `(p, q)` uses, the factor of node `r`, row `r` of the aggregate, the weight's row `q`
    and the bias at `q`, then the body's stored value at `(p, q)` is the layer at `(r, q)`. -/
theorem stored_is_layer (xd : FVec Ideal S5000x1 .f32) (xa : FVec Ideal S5000x128 .f32) (xw : FVec Ideal S128x128 .f32)
    (xb : FVec Ideal S1x128 .f32) (d : Nodes.Idx → EReal) (a : NodeRows.Idx → EReal) (W : Weight.Idx → EReal) (b : Chans.Idx → EReal)
    (p : Fin 5000) (q : Fin 128) (r : Fin 100000)
    (hd : xd (ix2 p (0 : Fin 1)) = d (ix1 r)) (ha : ∀ k : Fin 128, xa (ix2 p k) = a (ix2 r k))
    (hw : ∀ k : Fin 128, xw (ix2 k q) = W (ix2 q k)) (hb : xb (ix2 (0 : Fin 1) q) = b (ix1 q)) :
    k0_pay1 (F := Ideal) xd xa xw xb (ix2 p q) = layer d a W b (ix2 r q) := by
  rw [Block.stored_apply, layer_apply, hd, hb]
  refine congrArg (· + b (ix1 q)) (Finset.sum_congr rfl fun k _ => ?_)
  rw [ha k, hw k]

/-- THE BODY'S RESULT AT POINT `t`, entry `(p, q)`, is entry `(5000 t + p, q)` of `result`: the four block reads put
    into the body's stored value. -/
theorem point_apply (c : Dev nD) (t : Fin cfg0.N) (p : Fin 5000) (q : Fin 128) (r : Fin 100000) (hr : r.val = 5000 * t.val + p.val) :
    k0_pay1 (F := Ideal) (iblk m c 1 t) (iblk m c 0 t) (iblk m c 2 t) (iblk m c 3 t) (ix2 p q) = result m c (ix2 r q) := by
  unfold result
  exact stored_is_layer (iblk m c 1 t) (iblk m c 0 t) (iblk m c 2 t) (iblk m c 3 t) (factor m c) (aggregate m c)
    (m ((c : Thread nD τ).loc main_arg2)) (m ((c : Thread nD τ).loc main_arg3)) p q r
    (factor_block m c t p r hr) (fun k => aggregate_block m c t p k r hr) (fun k => weight_block m c t k q) (bias_block m c t q)

/-- The result window's block at point `t`, for ANY block contents `P` and ANY array contents `R`: if entry `(p, q)`
    of `P` is entry `(5000 t + p, q)` of `R`, then what a write-back of `P` writes is `R` read through the block. -/
theorem rows_written (t : Fin cfg0.N) (P : FVec Ideal S5000x128 .f32) (R : (⟨S100000x128, .f32⟩ : BufTy).Contents (Elt Ideal))
    (h : ∀ (p : Fin 5000) (q : Fin 128) (r : Fin 100000), r.val = 5000 * t.val + p.val → P (ix2 p q) = R (ix2 r q)) :
    (cfg0.win 4).cut (grid0.coords t) P = ((cfg0.win 4).blk t).view.read (Elt Ideal) R := by
  obtain ⟨-, -, -, -, -, -, -, -, o0, o1⟩ := block_indices t
  have ht : t.val < 20 := lt_of_lt_of_eq t.isLt N_0
  funext y
  have hy0 : (y 0).val < 5000 := (y 0).isLt
  have hemb : ((cfg0.win 4).blk t).view.emb y = ix2 (⟨5000 * t.val + (y 0).val, by omega⟩ : Fin 100000) (y 1) := by
    funext a
    apply Fin.ext
    match a with
    | ⟨0, _⟩ => show win0_4.index t (0 : Fin 2) * 5000 + 1 * (y 0).val = 5000 * t.val + (y 0).val; rw [o0]; omega
    | ⟨1, _⟩ => show win0_4.index t (1 : Fin 2) * 128 + 1 * (y 1).val = (y 1).val; rw [o1]; omega
  show P y = R (((cfg0.win 4).blk t).view.emb y)
  refine Eq.trans ?_ (congrArg R hemb.symm)
  exact (congrArg P (eq_ix2 (n0 := 5000) (n1 := 128) y)).trans (h (y 0) (y 1) ⟨5000 * t.val + (y 0).val, by omega⟩ rfl)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S5000x1) zero_offsets, View.ld_unit_zero (S := S5000x128) zero_offsets,
    View.ld_unit_zero (S := S128x128) zero_offsets, View.ld_unit_zero (S := S1x128) zero_offsets]
  exact rows_written t (k0_pay1 (F := Ideal) (iblk m c 1 t) (iblk m c 0 t) (iblk m c 2 t) (iblk m c 3 t)) (result m c)
    (fun p q r hr => point_apply m c t p q r hr)

/-- An index of the array is in point `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v40).slice (win0_4.rect t)).set ↔ _
  rw [View.set_slice_whole, Rect.mem_set_unit]
  exact Iff.rfl

/-- The blocks tile the array: row `r` lies in the block of point `r / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, o0, o1⟩ := block_indices ⟨(i 0).val / 5000, hlt⟩
  refine ⟨⟨(i 0).val / 5000, hlt⟩, flush0_4 _, ?_⟩
  rw [mem_block]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [o0]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [o1]
    omega

/-- THE ARRAY after the run is `result`: every block is what its point wrote, and the blocks cover the array. -/
theorem final (c : Dev nD) : (dats m 0 c).arrAt 4 cfg0.N = result m c :=
  (dats m 0 c).arrAt_eq_of_cover 4 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩)
    (Cert.KernelIdeal.Value.run_blocks m ρ)

end Cert.KernelIdeal.AsLayer

end
-- ==== Proof.lean ====
/-
  A graph-convolution layer: `out = (D^(-1/2) · agg) · Wᵀ + b`, where `agg` sums, over the edges into each node (self
  loops added), the source node's features scaled by the source's `deg^(-1/2)`, and `D^(-1/2)` scales row `r` by node
  `r`'s own `deg^(-1/2)` (zero where the degree is zero). That is how the programs' shared host operations read; the
  proof never opens them, so nothing below depends on what they compute.

  Both programs compute the degrees, the factors and the aggregate with the same host operations on the same
  arguments. They differ only in the last step. The reference broadcasts the factor along each row, multiplies, takes
  one whole matrix product with the transposed weight and adds the bias broadcast down the rows. The kernel lays the
  factor out as a column, the bias as a row, transposes the weight on the host, and then, on 20 blocks of 5000 rows,
  scales the block's rows, multiplies by the transposed weight on the matrix unit (operands narrowed to bf16, a
  change of format that is the identity on extended reals) into a zero accumulator, and adds the bias row.

  Read as extended reals both results are, at `(r, j)`,

      (∑ k, (d r · a (r, k)) · W (j, k)) + b j        (`Cert.GcnLayer.layer`),

  term for term and in the same order of operations inside each summand, so no algebraic law beyond re-indexing the
  contraction is used and the finiteness of the inputs is never opened. The kernel's side is `Proof/KernelLayer.lean`
  (each block is the layer's rows; the blocks tile the array) over `Proof/Block.lean` (one point's arithmetic at an
  index) and `Proof/Entry.lean` (the arrays the region stages); the reference's side is `Proof/RefLayer.lean`.
  Nothing was rewritten by the idealization, so the kernel's idealized program is its own text read at the extended
  reals and `preserves` has nothing to state.
-/
import proofs.«150162_j3075196584644_1_alg».proof.Defs
import proofs.«150162_j3075196584644_1_alg».proof.Proof.Gen.Kernel
import proofs.«150162_j3075196584644_1_alg».proof.Proof.Gen.Kernel.Frame
import proofs.«150162_j3075196584644_1_alg».proof.Proof.Gen.KernelIdeal
import proofs.«150162_j3075196584644_1_alg».proof.Proof.Gen.KernelIdeal.Frame
import proofs.«150162_j3075196584644_1_alg».proof.Proof.Gen.KernelIdeal.Value
import proofs.«150162_j3075196584644_1_alg».proof.Proof.Gen.ReferenceIdeal
import proofs.«150162_j3075196584644_1_alg».proof.Proof.Gen.Pre_finite_inputs
import proofs.«150162_j3075196584644_1_alg».proof.Proof.RefRun
import proofs.«150162_j3075196584644_1_alg».proof.Proof.RefRead
import proofs.«150162_j3075196584644_1_alg».proof.Proof.RefLayer
import proofs.«150162_j3075196584644_1_alg».proof.Proof.KernelLayer
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- No operation was rewritten: nothing to preserve. -/
theorem preserves : Cert.preserves_Kernel_KernelIdeal := trivial

/-- From memories that agree on the four arguments, the kernel's result array ends at the layer of the factor, the
    aggregate, the weight and the bias (`KernelIdeal.AsLayer.run`), and the reference's result is the same layer of
    the same four arrays (`ReferenceIdeal.AsLayer.result_eq`). -/
theorem algebraic : Cert.algebraic_KernelIdeal_ReferenceIdeal := by
  intro m ρ m' ρ' _ hagree
  refine ⟨fun c => Cert.KernelIdeal.AsLayer.result m c, Cert.KernelIdeal.AsLayer.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v44_eq, (hagree c).1, (hagree c).2.1, (hagree c).2.2.1, (hagree c).2.2.2]
  exact Cert.ReferenceIdeal.AsLayer.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
